-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x2048x4096 .f32) (main_arg1 : IVec S4096x4096 32) (main_arg2 : FVec F S_ .f32) (main_arg3 : IVec S_ 32) (main_arg4 : FVec F S4096 .f32) (main_arg5 : FVec F S_ .f32) (main_arg6 : IVec S_ 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg4
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  let main_v13 : FVec F S_ .f32 := Host.absf main_arg5
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_v12 main_v15
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 37
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S_, .i32⟩
  | .hbm, ⟨4, _⟩ => ⟨S4096, .f32⟩
  | .hbm, ⟨5, _⟩ => ⟨S_, .f32⟩
  | .hbm, ⟨6, _⟩ => ⟨S_, .i32⟩
  | .hbm, ⟨7, _⟩ => ⟨S8192x4096, .f32⟩
  | .hbm, ⟨8, _⟩ => ⟨S1x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .bf16⟩
  | .hbm, ⟨35, _⟩ => ⟨S8192x4096, .f32⟩
  | .hbm, ⟨36, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S4096_S1x4096 : S4096.ShapeCasts S1x4096
  bcast_S_S8192x4096 : S_.BroadcastsInDim S8192x4096 (![] : Fin 0 → Fin S8192x4096.rank)
  bitsLt_bf16_f32 : FTy.bits .bf16 < FTy.bits .f32
  bcast_S_S4096x4096 : S_.BroadcastsInDim S4096x4096 (![] : Fin 0 → Fin S4096x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v13) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S_, .i32⟩
  | .hbm, ⟨4, _⟩ => ⟨S4096, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4x2048x4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What the quantized linear layer computes, element by element, over the extended reals.

  One activation `x` is fake-quantized with the per-tensor step `a` and the integer zero point `z`:
  `((min 255 (max 0 (round (x / a) + z))) - z) * a`, the rounding to nearest with ties to even. One weight code `q` is
  dequantized with the zero point `zp` and the step `s`: `(q - zp) * s`. The layer's output at batch `b`, position `t`
  and output feature `o` is the sum over the 4096 input features `k` of the fake-quantized activation `(b, t, k)` times the
  dequantized weight `(o, k)`, plus the bias at `o`.

  Both programs are shown to end at this one function of their arguments. They differ only in how they arrange it: one
  flattens batch and position into one row axis of length 8192 before the fake-quantization and multiplies block by
  block (512 rows by 1024 output features at a time, the whole depth of 4096 in each block); the other keeps the three
  axes and contracts once. Neither difference is visible in the function below: fake-quantization acts on one element
  at a time, so it commutes with flattening, and a sum of extended reals does not depend on how it is blocked.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.QuantLinear

open Idealize.ShloMosaic Idealize.ShloMosaic.ValueIdx

/-- The activations' shape, batch by position by input feature. -/
abbrev SX : Shape := ⟨3, ![4, 2048, 4096]⟩
/-- The activations with batch and position flattened into one axis of rows. -/
abbrev SR : Shape := ⟨2, ![8192, 4096]⟩
/-- The weight codes' shape, output feature by input feature. -/
abbrev SW : Shape := ⟨2, ![4096, 4096]⟩
/-- A scalar parameter's shape. -/
abbrev S0 : Shape := ⟨0, ![]⟩
/-- The bias's shape. -/
abbrev SB : Shape := ⟨1, ![4096]⟩
/-- The bias as one row. -/
abbrev SB2 : Shape := ⟨2, ![1, 4096]⟩

/-- One activation, quantized to the 256 levels around the zero point `z` with step `a` and mapped back. -/
def actq (x a : EReal) (z : BitVec 32) : EReal :=
  (min (Ideal.ofBits .f32 0x437F0000#32)
      (max (Ideal.ofBits .f32 0x00000000#32)
        (Ideal.liftRound Ideal.roundHalfEven (Ideal.div x a) + ((z.toInt : ℝ) : EReal)))
    - ((z.toInt : ℝ) : EReal)) * a

/-- One weight code mapped to its value: the code less the zero point, times the step. -/
def wdq (q zp : BitVec 32) (s : EReal) : EReal :=
  (((q.toInt : ℝ) : EReal) - ((zp.toInt : ℝ) : EReal)) * s

/-- The layer's output at batch `b`, position `t`, output feature `o`. -/
def outAt (x : SX.Idx → EReal) (q : SW.Idx → BitVec 32) (s : S0.Idx → EReal) (zp : S0.Idx → BitVec 32)
    (bias : SB.Idx → EReal) (a : S0.Idx → EReal) (z : S0.Idx → BitVec 32) (b : Fin 4) (t : Fin 2048) (o : Fin 4096) : EReal :=
  (∑ k : Fin 4096, actq (x (ix3 b t k)) (a ix0) (z ix0) * wdq (q (ix2 o k)) (zp ix0) (s ix0)) + bias (ix1 o)

/-- The layer's output array. -/
def out (x : SX.Idx → EReal) (q : SW.Idx → BitVec 32) (s : S0.Idx → EReal) (zp : S0.Idx → BitVec 32)
    (bias : SB.Idx → EReal) (a : S0.Idx → EReal) (z : S0.Idx → BitVec 32) : SX.Idx → EReal :=
  fun i => outAt x q s zp bias a z (i 0) (i 1) (i 2)

/-- The output at an index given by its coordinates. -/
theorem out_ix3 (x : SX.Idx → EReal) (q : SW.Idx → BitVec 32) (s : S0.Idx → EReal) (zp : S0.Idx → BitVec 32)
    (bias : SB.Idx → EReal) (a : S0.Idx → EReal) (z : S0.Idx → BitVec 32) (b : Fin 4) (t : Fin 2048) (o : Fin 4096) :
    out x q s zp bias a z (ix3 b t o) = outAt x q s zp bias a z b t o := rfl

/-- A scalar broadcast to any shape reads the scalar everywhere. -/
theorem bcast_scalar {α : Type} {t : Shape} (dims : Fin S0.rank → Fin t.rank) (h : S0.BroadcastsInDim t dims)
    (v : S0.Idx → α) (j : t.Idx) : broadcastInDim t dims h v j = v ix0 :=
  broadcastInDim_apply dims h v j ix0 (fun a => a.elim0)

/-- Row `r` of the flattened activations is batch `r / 2048`, position `r % 2048`. -/
theorem flatten_apply {α : Type} (x : SX.Idx → α) (h : SX.ShapeCasts SR) (b : Fin 4) (t : Fin 2048) (k : Fin 4096)
    (r : Fin 8192) (hr : r.val = b.val * 2048 + t.val) :
    shapeCast SR x h (ix2 r k) = x (ix3 b t k) := by
  refine shapeCast_apply x h (ix2 r k) (ix3 b t k) ?_
  rw [Shape.rowMajor_val_three, Shape.rowMajor_val_two]
  show (b.val * 2048 + t.val) * 4096 + k.val = r.val * 4096 + k.val
  rw [hr]

/-- And back: the element at batch `b`, position `t` of the unflattened output is row `b * 2048 + t`. -/
theorem unflatten_apply {α : Type} (y : SR.Idx → α) (h : SR.ShapeCasts SX) (b : Fin 4) (t : Fin 2048) (o : Fin 4096)
    (r : Fin 8192) (hr : r.val = b.val * 2048 + t.val) :
    shapeCast SX y h (ix3 b t o) = y (ix2 r o) := by
  refine shapeCast_apply y h (ix3 b t o) (ix2 r o) ?_
  rw [Shape.rowMajor_val_three, Shape.rowMajor_val_two]
  show r.val * 4096 + o.val = (b.val * 2048 + t.val) * 4096 + o.val
  rw [hr]

/-- The host's fake-quantization of a whole array `X` of any shape, as the host computes it: the step and the zero
    point broadcast from scalars, the clamp a maximum with 0 then a minimum with 255, and the result narrowed to the
    multiplier's input format (the identity on extended reals). -/
def fakequant {t : Shape} (dims : Fin S0.rank → Fin t.rank) (hb : S0.BroadcastsInDim t dims)
    (X : FVec Ideal t .f32) (a : FVec Ideal S0 .f32) (z : IVec S0 32) (hlt : FTy.bits .bf16 < FTy.bits .f32) : FVec Ideal t .bf16 :=
  truncf .bf16 (mulf (subf (minimumf (broadcastInDim t dims hb (id (constant (F := Ideal) S0 .f32 0x437F0000#32)))
        (maximumf (broadcastInDim t dims hb (id (constant (F := Ideal) S0 .f32 0x00000000#32)))
          (addf (Host.roundeven (Host.divf X (broadcastInDim t dims hb a))) (broadcastInDim t dims hb (sitofp (F := Ideal) .f32 z)))))
      (broadcastInDim t dims hb (sitofp (F := Ideal) .f32 z))) (broadcastInDim t dims hb a)) hlt

/-- Read at an index it is `actq` of the element there. -/
theorem fakequant_apply {t : Shape} (dims : Fin S0.rank → Fin t.rank) (hb : S0.BroadcastsInDim t dims)
    (X : FVec Ideal t .f32) (a : FVec Ideal S0 .f32) (z : IVec S0 32) (hlt : FTy.bits .bf16 < FTy.bits .f32) (j : t.Idx) :
    fakequant dims hb X a z hlt j = actq (X j) (a ix0) (z ix0) := by
  show (min (broadcastInDim t dims hb (id (constant (F := Ideal) S0 .f32 0x437F0000#32)) j)
      (max (broadcastInDim t dims hb (id (constant (F := Ideal) S0 .f32 0x00000000#32)) j)
        (Ideal.liftRound Ideal.roundHalfEven (Ideal.div (X j) (broadcastInDim t dims hb a j))
          + broadcastInDim t dims hb (sitofp (F := Ideal) .f32 z) j))
    - broadcastInDim t dims hb (sitofp (F := Ideal) .f32 z) j) * broadcastInDim t dims hb a j = _
  rw [bcast_scalar, bcast_scalar, bcast_scalar, bcast_scalar]
  rfl

/-- The host's dequantization of the whole array `Q` of weight codes, as the host computes it. -/
def dequant {t : Shape} (dims : Fin S0.rank → Fin t.rank) (hb : S0.BroadcastsInDim t dims)
    (Q : IVec t 32) (zp : IVec S0 32) (s : FVec Ideal S0 .f32) (hlt : FTy.bits .bf16 < FTy.bits .f32) : FVec Ideal t .bf16 :=
  truncf .bf16 (mulf (subf (sitofp (F := Ideal) .f32 Q) (broadcastInDim t dims hb (sitofp (F := Ideal) .f32 zp)))
      (broadcastInDim t dims hb s)) hlt

/-- Read at an index it is `wdq` of the code there. -/
theorem dequant_apply {t : Shape} (dims : Fin S0.rank → Fin t.rank) (hb : S0.BroadcastsInDim t dims)
    (Q : IVec t 32) (zp : IVec S0 32) (s : FVec Ideal S0 .f32) (hlt : FTy.bits .bf16 < FTy.bits .f32) (j : t.Idx) :
    dequant dims hb Q zp s hlt j = wdq (Q j) (zp ix0) (s ix0) := by
  show ((((Q j).toInt : ℝ) : EReal) - broadcastInDim t dims hb (sitofp (F := Ideal) .f32 zp) j) * broadcastInDim t dims hb s j = _
  rw [bcast_scalar, bcast_scalar]
  rfl

end Cert.QuantLinear

end
-- ==== Proof.RefValue.lean ====
/-
  The reference program computes the layer's output.

  Its host operations are read one at a time at an index: the quotient by the step, the rounding, the shift by the zero
  point, the clamp to [0, 255], the shift back and the product with the step are each applied to one element, the
  parameters being scalars broadcast to the array's shape; the weights likewise; the contraction is the sum over the
  4096 input features of activation `(b, t, k)` times weight `(o, k)`; and the bias, broadcast along batch and position,
  is added at `o`.
-/
import proofs.«425915_j31748398252443_3_alg».proof.Proof.Gen.ReferenceIdeal.Read
import proofs.«425915_j31748398252443_3_alg».proof.Proof.Spec

noncomputable section

open scoped BigOperators

namespace Cert.ReferenceIdeal.Layer

open Cert.ReferenceIdeal Cert.ReferenceIdeal.Read Idealize.ShloMosaic Idealize.ShloMosaic.ValueIdx Cert.QuantLinear

/-- The fake-quantized activations, at batch `b`, position `t`, feature `k`. -/
theorem act_apply (x0 : (⟨S4x2048x4096, .f32⟩ : BufTy).Contents (Elt Ideal)) (x5 : (⟨S_, .f32⟩ : BufTy).Contents (Elt Ideal))
    (x6 : (⟨S_, .i32⟩ : BufTy).Contents (Elt Ideal)) (i : S4x2048x4096.Idx) :
    val_main_v10 (F := Ideal) x0 x5 x6 i = actq (x0 i) (x5 ix0) (x6 ix0) := by
  rw [val_main_v10_apply, val_main_v8_apply, val_main_v9_apply, val_main_v6_apply, val_main_call1_v4_apply,
    val_main_call1_v3_apply, val_main_cst_0_apply, val_main_call1_v2_apply, val_main_call1_v1_apply,
    val_main_call1_v0_apply, val_main_cst_apply, val_main_v5_apply, val_main_v3_apply, val_main_v2_apply,
    val_main_v1_apply, val_main_v4_apply, val_main_v7_apply, val_main_v0_apply]
  rfl

/-- The dequantized weights, at output feature `o`, input feature `k`. -/
theorem weight_apply (x1 : (⟨S4096x4096, .i32⟩ : BufTy).Contents (Elt Ideal)) (x2 : (⟨S_, .f32⟩ : BufTy).Contents (Elt Ideal))
    (x3 : (⟨S_, .i32⟩ : BufTy).Contents (Elt Ideal)) (i : S4096x4096.Idx) :
    val_main_v16 (F := Ideal) x1 x2 x3 i = wdq (x1 i) (x3 ix0) (x2 ix0) := by
  rw [val_main_v16_apply, val_main_v14_apply, val_main_v15_apply, val_main_v11_apply, val_main_v13_apply,
    val_main_v12_apply]
  rfl

/-- THE REFERENCE'S RESULT is the layer's output. -/
theorem result_eq (x0 : (⟨S4x2048x4096, .f32⟩ : BufTy).Contents (Elt Ideal)) (x1 : (⟨S4096x4096, .i32⟩ : BufTy).Contents (Elt Ideal))
    (x2 : (⟨S_, .f32⟩ : BufTy).Contents (Elt Ideal)) (x3 : (⟨S_, .i32⟩ : BufTy).Contents (Elt Ideal))
    (x4 : (⟨S4096, .f32⟩ : BufTy).Contents (Elt Ideal)) (x5 : (⟨S_, .f32⟩ : BufTy).Contents (Elt Ideal))
    (x6 : (⟨S_, .i32⟩ : BufTy).Contents (Elt Ideal)) :
    val_main_v20 (F := Ideal) x0 x1 x2 x3 x4 x5 x6 = out x0 x1 x2 x3 x4 x5 x6 := by
  funext i
  obtain ⟨b, t, o, rfl⟩ : ∃ (b : Fin 4) (t : Fin 2048) (o : Fin 4096), i = ix3 b t o := ⟨i 0, i 1, i 2, eq_ix3 i⟩
  rw [out_ix3, val_main_v20_apply, val_main_v17_apply, val_main_v19_apply, val_main_v18_apply]
  refine congrArg₂ (· + ·) (Finset.sum_congr rfl fun k _ => ?_) ?_
  · rw [act_apply, weight_apply]
    have el : lidx_main_v17 (ix3 b t o) k = ix3 b t k := funext fun a => by
      match a with
      | ⟨0, _⟩ => rfl
      | ⟨1, _⟩ => rfl
      | ⟨2, _⟩ => rfl
    have er : ridx_main_v17 (ix3 b t o) k = ix2 o k := funext fun a => by
      match a with
      | ⟨0, _⟩ => rfl
      | ⟨1, _⟩ => rfl
    rw [el, er]
  · have eb : idx_main_v18 (idx_main_v19 (ix3 b t o)) = ix1 o := funext fun a => by
      match a with
      | ⟨0, _⟩ => rfl
    rw [eb]

end Cert.ReferenceIdeal.Layer

end
-- ==== Proof.Body.lean ====
/-
  One block of the kernel's output, element by element.

  At a grid point the body holds a block of 512 rows of the fake-quantized activations (512 by 4096), a block of 1024
  rows of the dequantized weights (1024 by 4096) and the matching 1024 bias entries as one row. It contracts the two
  blocks over their shared last axis, starting from zero, and adds the bias row to every row of the product. So the
  value it stores at row `p`, column `q` of its 512 by 1024 output block is the sum over the 4096 input features `k` of
  activation `(p, k)` times weight `(q, k)`, plus bias `q`. Over the extended reals the product started from zero is
  exactly that sum.
-/
import proofs.«425915_j31748398252443_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The left operand of the block product is read at the output's row … -/
theorem lhs_row (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- … and at the contracted feature. -/
theorem lhs_feat (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- The right operand is read at the output's column, which is a row of the weight block, … -/
theorem rhs_row (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- … and at the contracted feature. -/
theorem rhs_feat (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The block product from zero, at row `p` and column `q`: the sum over the features of activation times weight. -/
theorem product_apply (xa : FVec Ideal S512x4096 .bf16) (w : FVec Ideal S1024x4096 .bf16) (p : Fin 512) (q : Fin 1024) :
    matmul dot_S512x4096_S1024x4096_S512x1024_1_1_0_0_n_n none xa w (constant (F := Ideal) S512x1024 .f32 0x00000000#32) (ix2 p q)
      = ∑ k : Fin 4096, xa (ix2 p k) * w (ix2 q k) := by
  simp only [matmul]
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx (ix2 p q) ((ValueIdx.contrEquiv1 dot_S512x4096_S1024x4096_S512x1024_1_1_0_0_n_n 4096 rfl rfl).symm k) = ix2 p k := funext fun a => Fin.ext (by
    match a with
    | ⟨0, _⟩ => exact lhs_row _ _
    | ⟨1, _⟩ => exact (lhs_feat _ _).trans hk)
  have er : dot_S512x4096_S1024x4096_S512x1024_1_1_0_0_n_n.rhsIdx (ix2 p q) ((ValueIdx.contrEquiv1 dot_S512x4096_S1024x4096_S512x1024_1_1_0_0_n_n 4096 rfl rfl).symm k) = ix2 q k := funext fun a => Fin.ext (by
    match a with
    | ⟨0, _⟩ => exact rhs_row _ _
    | ⟨1, _⟩ => exact (rhs_feat _ _).trans hk)
  rw [el, er]

/-- WHAT THE BODY STORES at row `p`, column `q` of its output block. -/
theorem stored_apply (xa : FVec Ideal S512x4096 .bf16) (w : FVec Ideal S1024x4096 .bf16) (brow : FVec Ideal S1x1024 .f32)
    (p : Fin 512) (q : Fin 1024) :
    k0_pay1 (F := Ideal) xa w brow (ix2 p q) = (∑ k : Fin 4096, xa (ix2 p k) * w (ix2 q k)) + brow (ix2 (0 : Fin 1) q) := by
  unfold k0_pay1
  simp only [shapeCast_self]
  show matmul dot_S512x4096_S1024x4096_S512x1024_1_1_0_0_n_n none xa w (constant (F := Ideal) S512x1024 .f32 0x00000000#32) (ix2 p q)
      + broadcastTo S512x1024 brow broadcasts_S1x1024_S512x1024 (ix2 p q) = _
  rw [product_apply, broadcastTo_1b_ab_apply]

end Cert.KernelIdeal.Block

end
-- ==== Proof.Prologue.lean ====
/-
  What the kernel's three operands hold when its grid starts.

  Before the grid runs, the host flattens the activations to 8192 rows, fake-quantizes them element by element and
  narrows them to the multiplier's input format; it dequantizes the weight codes element by element and narrows them
  likewise; and it lays the bias out as one row. Read at an index, over the extended reals (where narrowing changes
  nothing): row `r = b * 2048 + t`, feature `k` of the first operand is the fake-quantized activation at batch `b`,
  position `t`, feature `k`; entry `(o, k)` of the second is the dequantized weight `(o, k)`; entry `(0, o)` of the
  third is the bias at `o`.
-/
import proofs.«425915_j31748398252443_3_alg».proof.Proof.Gen.KernelIdeal.Frame
import proofs.«425915_j31748398252443_3_alg».proof.Proof.Spec
import Idealize.ShloMosaic.Lib.StableHlo.Run
import Idealize.ShloMosaic.Lib.ValueLayout

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx Cert.QuantLinear

variable (m : (ℓ : Loc nD τ sig) → Buf (Elt Ideal) ℓ)

set_option maxHeartbeats 2000000 in
/-- The first operand is the host's fake-quantization of the flattened activations. -/
theorem acts_eq (c : Dev nD) :
    (V m c main_v13 : S8192x4096.Idx → EReal)
      = fakequant ![] bcast_S_S8192x4096 (shapeCast S8192x4096 (m ((c : Thread nD τ).loc main_arg0)) shapeCasts_S4x2048x4096_S8192x4096)
          (m ((c : Thread nD τ).loc main_arg5)) (m ((c : Thread nD τ).loc main_arg6)) bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

set_option maxHeartbeats 2000000 in
/-- The second operand is the host's dequantization of the weight codes. -/
theorem weights_eq (c : Dev nD) :
    (V m c main_v20 : S4096x4096.Idx → EReal)
      = dequant ![] bcast_S_S4096x4096 (m ((c : Thread nD τ).loc main_arg1)) (m ((c : Thread nD τ).loc main_arg3))
          (m ((c : Thread nD τ).loc main_arg2)) bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

set_option maxHeartbeats 2000000 in
/-- The third operand is the bias laid out as one row. -/
theorem biasrow_eq (c : Dev nD) :
    (V m c main_v1 : S1x4096.Idx → EReal) = shapeCast S1x4096 (m ((c : Thread nD τ).loc main_arg4)) shapeCasts_S4096_S1x4096 := by
  dsimp only [V, V0]
  simp only [hostOps0, hostOps0_1, hostOps0_2, hostOps0_3, hostOps0_4, List.flatten_cons, List.flatten_nil, List.append_nil, List.cons_append, List.nil_append]
  after_results_simp
  rfl

/-- Row `r = b * 2048 + t`, feature `k` of the first operand. -/
theorem acts_apply (c : Dev nD) (b : Fin 4) (t : Fin 2048) (k : Fin 4096) (r : Fin 8192) (hr : r.val = b.val * 2048 + t.val) :
    V m c main_v13 (ix2 r k)
      = actq (m ((c : Thread nD τ).loc main_arg0) (ix3 b t k)) (m ((c : Thread nD τ).loc main_arg5) ix0) (m ((c : Thread nD τ).loc main_arg6) ix0) := by
  rw [acts_eq, fakequant_apply, flatten_apply _ _ b t k r hr]

/-- Entry (o, k) of the second operand. -/
theorem weights_apply (c : Dev nD) (o : Fin 4096) (k : Fin 4096) :
    V m c main_v20 (ix2 o k)
      = wdq (m ((c : Thread nD τ).loc main_arg1) (ix2 o k)) (m ((c : Thread nD τ).loc main_arg3) ix0) (m ((c : Thread nD τ).loc main_arg2) ix0) := by
  rw [weights_eq, dequant_apply]

/-- Entry (0, o) of the third operand. -/
theorem biasrow_apply (c : Dev nD) (o : Fin 4096) :
    V m c main_v1 (ix2 (0 : Fin 1) o) = m ((c : Thread nD τ).loc main_arg4) (ix1 o) := by
  rw [biasrow_eq, shapeCast_a_1a_apply]

end Cert.KernelIdeal.Operands

end
-- ==== Proof.KernelValue.lean ====
/-
  The kernel program computes the layer's output.

  The grid has 4 by 16 points. The point with coordinates (j, i) takes rows 512 i … 512 i + 511 of the flattened,
  fake-quantized activations (all 4096 features), rows 1024 j … 1024 j + 1023 of the dequantized weights (all 4096
  features) and the bias entries 1024 j … 1024 j + 1023, and writes the 512 by 1024 block (i, j) of the flattened output.
  By the block's element formula, entry (r, o) of that array is therefore the sum over the features `k` of activation
  `(r, k)` times weight `(o, k)`, plus bias `o`, for every (r, o): the 16 by 4 blocks tile the 8192 by 4096 array. The
  host then unflattens the rows into batch and position, and reading the three operands at their indices gives the
  layer's output.
-/
import proofs.«425915_j31748398252443_3_alg».proof.Proof.Gen.KernelIdeal.Frame
import proofs.«425915_j31748398252443_3_alg».proof.Proof.Spec
import proofs.«425915_j31748398252443_3_alg».proof.Proof.Body
import proofs.«425915_j31748398252443_3_alg».proof.Proof.Prologue
import Idealize.ShloMosaic.Lib.Pipeline.Value
import Idealize.ShloMosaic.Lib.StableHlo.Run

noncomputable section

open scoped BigOperators

namespace Cert.KernelIdeal.Layer

open Cert.KernelIdeal Cert.KernelIdeal.Gen Idealize.ShloMosaic Idealize.ShloMosaic.TcCoe Idealize.SL.Sem
open Idealize.ShloMosaic.StableHlo Idealize.ShloMosaic.ValueIdx Cert.QuantLinear
open Idealize.ShloMosaic.Pipeline (Dat)

variable (m : (ℓ : Loc nD τ sig) → Buf (Elt Ideal) ℓ) (ρ : Dev nD → PrngReg)

/-- The flattened output as one function of the three operand arrays: entry (r, o) is the sum over the features of
    activation (r, k) times weight (o, k), plus the bias row at o. -/
def flat (A : S8192x4096.Idx → EReal) (W : S4096x4096.Idx → EReal) (B : S1x4096.Idx → EReal) : S8192x4096.Idx → EReal :=
  fun i => (∑ k : Fin 4096, A (ix2 (i 0) k) * W (ix2 (i 1) k)) + B (ix2 (0 : Fin 1) (i 1))

theorem offset_zero : (![0, 0] : Fin 2 → Nat) = fun _ => 0 := funext fun a => by fin_cases a <;> rfl

/-- How the four index maps move together over the grid: the activations' block row is the output's block row, the
    weights' block row and the bias's block column are the output's block column, and every block spans the whole
    feature axis. -/
theorem block_indices : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15
    ∧ win0_3.index t (1 : Fin 2) ≤ 3 :=
  (by decide +kernel : ∀ t : Fin grid0.N, _)

/-- Every one of the 16 by 4 output blocks is some point's. -/
theorem block_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- WHAT POINT `t` WRITES BACK is block `t` of `flat` of the operand arrays as the grid finds them. -/
theorem flushed_eq (c : Dev nD) (t : Fin cfg0.N) :
    (dats m 0 c).flushed 3 t
      = ((cfg0.win 3).blk t).view.read (Elt Ideal) (flat (V m c main_v13) (V m c main_v20) (V m c main_v1)) := by
  show (cfg0.win 3).cut (grid0.coords t) ((dats m 0 c).after 3 t) = _
  rw [after0_3]
  unfold out0_3
  rw [View.canon_unit_zero offset_zero]
  simp only [View.ld_unit_zero (S := S512x4096) offset_zero, View.ld_unit_zero (S := S1024x4096) offset_zero,
    View.ld_unit_zero (S := S1x1024) offset_zero]
  obtain ⟨e0, e1, e2, e3, e4, e5, e6, e7⟩ := block_indices t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = flat (V m c main_v13) (V m c main_v20) (V m c main_v1) (((cfg0.win 3).blk t).view.emb (ix2 p q))
  refine (Cert.KernelIdeal.Block.stored_apply (iblk m c 0 t) (iblk m c 1 t) (iblk m c 2 t) p q).trans ?_
  unfold flat
  refine congrArg₂ (· + ·) (Finset.sum_congr rfl fun k _ => congrArg₂ (· * ·) ?_ ?_) ?_
  · show V m c main_v13 (((cfg0.win 0).blk t).view.emb (ix2 p k)) = V m c main_v13 (ix2 ((((cfg0.win 3).blk t).view.emb (ix2 p q)) 0) k)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · show V m c main_v20 (((cfg0.win 1).blk t).view.emb (ix2 q k)) = V m c main_v20 (ix2 ((((cfg0.win 3).blk t).view.emb (ix2 p q)) 1) k)
    refine congrArg _ (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 4096 + 1 * k.val = k.val; omega
  · show V m c main_v1 (((cfg0.win 2).blk t).view.emb (ix2 (0 : Fin 1) q)) = V m c main_v1 (ix2 (0 : Fin 1) ((((cfg0.win 3).blk t).view.emb (ix2 p q)) 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- An index of the flattened output is in point `t`'s block iff each coordinate is in the block's range on its axis. -/
theorem mem_block (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v21).slice (win0_3.rect t)).set ↔ _
  rw [View.set_slice_whole, Rect.mem_set_unit]
  exact Iff.rfl

/-- The blocks tile the flattened output: row `r`, column `o` is in block (r / 512, o / 1024). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE FLATTENED OUTPUT after the grid is `flat` of the operand arrays. -/
theorem flat_final (c : Dev nD) :
    (dats m 0 c).arrAt 3 cfg0.N = flat (V m c main_v13) (V m c main_v20) (V m c main_v1) :=
  (dats m 0 c).arrAt_eq_of_cover 3 (flat (V m c main_v13) (V m c main_v20) (V m c main_v1)) (fun t _ => flushed_eq m c t) covered

/-- The host's last operation unflattens the rows of the flattened output. -/
theorem unflattened (c : Dev nD) :
    Pipeline.afterTail₀ cfgs (dats m) 0 (V0 m) [hostOps1] c main_v22
      = shapeCast S4x2048x4096 (flat (V m c main_v13) (V m c main_v20) (V m c main_v1)) shapeCasts_S8192x4096_S4x2048x4096 := by
  unfold Pipeline.afterTail₀
  show StableHlo.after hostOps1 _ (Proc.devRef .tc main_v22) = _
  after_results
  exact congrArg (fun y => shapeCast S4x2048x4096 y shapeCasts_S8192x4096_S4x2048x4096)
    ((Pipeline.withArrays_arr spec0 launch0.win.arr_inj c _ _ 3).trans (flat_final m c))

/-- THE KERNEL PROGRAM'S RESULT is the layer's output. -/
theorem result_eq (c : Dev nD) :
    Pipeline.afterTail₀ cfgs (dats m) 0 (V0 m) [hostOps1] c main_v22
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [unflattened]
  funext i
  obtain ⟨b, t, o, rfl⟩ : ∃ (b : Fin 4) (t : Fin 2048) (o : Fin 4096), i = ix3 b t o := ⟨i 0, i 1, i 2, eq_ix3 i⟩
  have hb : b.val < 4 := b.isLt
  have ht : t.val < 2048 := t.isLt
  rw [out_ix3, unflatten_apply _ _ b t o ⟨b.val * 2048 + t.val, by omega⟩ rfl]
  unfold flat outAt
  refine congrArg₂ (· + ·) (Finset.sum_congr rfl fun k _ => congrArg₂ (· * ·) ?_ ?_) ?_
  · exact Cert.KernelIdeal.Operands.acts_apply m c b t k ⟨b.val * 2048 + t.val, by omega⟩ rfl
  · exact Cert.KernelIdeal.Operands.weights_apply m c o k
  · exact Cert.KernelIdeal.Operands.biasrow_apply m c o

/-- THE RUN, READ: every weakly fair execution of the kernel program terminates with its result at the layer's output
    of the arguments, and the arguments unchanged. -/
theorem run : θ_run defs (onTc (τ := τ) (main (F := Ideal))) ⟨m, fun _ => 0, ρ⟩ fun r => ∀ c : Dev nD,
      r.2.mem ((c.tc : Thread nD τ).loc main_v22)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Layer

end
-- ==== Proof.lean ====
/-
  A quantized linear layer, written two ways, computes one function over the extended reals.

  The layer fake-quantizes its activations (divide by a step, round to nearest even, shift by a zero point, clamp to
  [0, 255], shift back, multiply by the step), dequantizes its integer weight codes (subtract a zero point, multiply
  by a step), contracts the activations with the weights over the 4096 input features and adds a bias. The kernel
  program flattens batch and position into 8192 rows, prepares both operands on the host, and computes the product
  plus bias block by block on a 4 by 16 grid, each block with the full depth of the contraction; the reference keeps
  the three axes and contracts once. Over the extended reals a change of float format is the identity and a sum does
  not depend on its arrangement, so both end at `Cert.QuantLinear.out` of their arguments: the kernel program by
  `Cert.KernelIdeal.Layer.run`, the reference by its run read back and `Cert.ReferenceIdeal.Layer.result_eq`.
  No law that needs finite operands is used (only that addition and multiplication of extended reals are what both
  sides apply, to the same operands), so the precondition is never opened. The idealization rewrote nothing in the
  kernel, so there is nothing to preserve.
-/
import proofs.«425915_j31748398252443_3_alg».proof.Defs
import proofs.«425915_j31748398252443_3_alg».proof.Proof.Gen.Kernel
import proofs.«425915_j31748398252443_3_alg».proof.Proof.Gen.Kernel.Frame
import proofs.«425915_j31748398252443_3_alg».proof.Proof.Gen.KernelIdeal
import proofs.«425915_j31748398252443_3_alg».proof.Proof.Gen.KernelIdeal.Frame
import proofs.«425915_j31748398252443_3_alg».proof.Proof.Gen.ReferenceIdeal
import proofs.«425915_j31748398252443_3_alg».proof.Proof.Gen.Pre_finite_inputs
import proofs.«425915_j31748398252443_3_alg».proof.Proof.Gen.ReferenceIdeal.Run
import proofs.«425915_j31748398252443_3_alg».proof.Proof.Gen.ReferenceIdeal.Read
import proofs.«425915_j31748398252443_3_alg».proof.Proof.RefValue
import proofs.«425915_j31748398252443_3_alg».proof.Proof.KernelValue
import Idealize.ShloMosaic.Adequacy
import Idealize.ShloMosaic.Init

noncomputable section

namespace Cert.Proof

open Idealize.ShloMosaic Idealize.SL.Sem

/-- The kernel program as printed runs, and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end at the layer's output of those arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v20_eq _ _ _ _ _ _ _).trans (Cert.ReferenceIdeal.Layer.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
